-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x3145728 : Shape := ⟨2, ![8, 3145728]⟩
abbrev S4x1038240 : Shape := ⟨2, ![4, 1038240]⟩
abbrev S_ : Shape := ⟨0, ![]⟩

class Facts : Prop where
  bcast_S_S8x3145728 : S_.BroadcastsInDim S8x3145728 (![] : Fin 0 → Fin S8x3145728.rank)
  reducesTo_S8x3145728_S_d0_1 : S8x3145728.ReducesTo [0, 1] S_
  h_S_ : 0 < S_.numel
  bcast_S_S4x1038240 : S_.BroadcastsInDim S4x1038240 (![] : Fin 0 → Fin S4x1038240.rank)
  reducesTo_S4x1038240_S_d0_1 : S4x1038240.ReducesTo [0, 1] S_

variable [Facts]

def fn {F : FTy → Type} [FloatOps F] (main_arg0 : FVec F S8x3145728 .f32) (main_arg1 : FVec F S4x1038240 .f32) (main_arg2 : IVec S4x1038240 32) : IVec S_ 1 :=
  let main_v0 : FVec F S8x3145728 .f32 := Host.absf main_arg0
  let main_cst : FVec F S_ .f32 := constant S_ .f32 0x7F800000#32
  let main_v1 : FVec F S8x3145728 .f32 := broadcastInDim S8x3145728 ![] bcast_S_S8x3145728 main_cst
  let main_v2 : IVec S8x3145728 1 := cmpf .olt main_v0 main_v1
  let main_c : IVec S_ 1 := constantI S_ 1 1#1
  let main_v3 : IVec S_ 1 := (fun x v => Host.reduce IntOp.andi x v reducesTo_S8x3145728_S_d0_1 h_S_) main_v2 main_c
  let main_v4 : FVec F S4x1038240 .f32 := Host.absf main_arg1
  let main_cst_0 : FVec F S_ .f32 := constant S_ .f32 0x7F800000#32
  let main_v5 : FVec F S4x1038240 .f32 := broadcastInDim S4x1038240 ![] bcast_S_S4x1038240 main_cst_0
  let main_v6 : IVec S4x1038240 1 := cmpf .olt main_v4 main_v5
  let main_c_1 : IVec S_ 1 := constantI S_ 1 1#1
  let main_v7 : IVec S_ 1 := (fun x v => Host.reduce IntOp.andi x v reducesTo_S4x1038240_S_d0_1 h_S_) main_v6 main_c_1
  let main_v8 : IVec S_ 1 := andi main_v3 main_v7
  main_v8
-- ==== Kernel.lean ====
abbrev S8x3145728 : Shape := ⟨2, ![8, 3145728]⟩
abbrev S4x1038240 : Shape := ⟨2, ![4, 1038240]⟩
abbrev S4152960 : Shape := ⟨1, ![4152960]⟩
abbrev S_ : Shape := ⟨0, ![]⟩
abbrev S4152960x1 : Shape := ⟨2, ![4152960, 1]⟩
abbrev S1 : Shape := ⟨1, ![1]⟩
abbrev S1x1 : Shape := ⟨2, ![1, 1]⟩
abbrev S8x4152960 : Shape := ⟨2, ![8, 4152960]⟩
abbrev S8x4x1038240 : Shape := ⟨3, ![8, 4, 1038240]⟩
abbrev S8x4x1048576 : Shape := ⟨3, ![8, 4, 1048576]⟩
abbrev S4x1048576 : Shape := ⟨2, ![4, 1048576]⟩
abbrev S8x1048576 : Shape := ⟨2, ![8, 1048576]⟩
abbrev S8x4x16384 : Shape := ⟨3, ![8, 4, 16384]⟩
abbrev S4x16384 : Shape := ⟨2, ![4, 16384]⟩
abbrev S8x16384 : Shape := ⟨2, ![8, 16384]⟩
abbrev S1x4x16384 : Shape := ⟨3, ![1, 4, 16384]⟩
abbrev S8x1038240 : Shape := ⟨2, ![8, 1038240]⟩

abbrev nBuf : Space → Nat
  | .hbm => 36
  | .vmem => 6
  | .smem => 0
  | _ => 0

abbrev bufTy : (tb : Table) → Fin (tcTables nBuf tb) → BufTy
  | .hbm, ⟨0, _⟩ => ⟨S8x3145728, .f32⟩
  | .hbm, ⟨1, _⟩ => ⟨S4x1038240, .f32⟩
  | .hbm, ⟨2, _⟩ => ⟨S4x1038240, .i32⟩
  | .hbm, ⟨3, _⟩ => ⟨S4152960, .i32⟩
  | .hbm, ⟨4, _⟩ => ⟨S_, .i32⟩
  | .hbm, ⟨5, _⟩ => ⟨S4152960, .i32⟩
  | .hbm, ⟨6, _⟩ => ⟨S4152960, .i1⟩
  | .hbm, ⟨7, _⟩ => ⟨S_, .i32⟩
  | .hbm, ⟨8, _⟩ => ⟨S4152960, .i32⟩
  | .hbm, ⟨9, _⟩ => ⟨S4152960, .i32⟩
  | .hbm, ⟨10, _⟩ => ⟨S4152960, .i32⟩
  | .hbm, ⟨11, _⟩ => ⟨S4152960x1, .i32⟩
  | .hbm, ⟨12, _⟩ => ⟨S1, .i32⟩
  | .hbm, ⟨13, _⟩ => ⟨S_, .i32⟩
  | .hbm, ⟨14, _⟩ => ⟨S4152960x1, .i32⟩
  | .hbm, ⟨15, _⟩ => ⟨S4152960x1, .i1⟩
  | .hbm, ⟨16, _⟩ => ⟨S1x1, .i32⟩
  | .hbm, ⟨17, _⟩ => ⟨S4152960x1, .i32⟩
  | .hbm, ⟨18, _⟩ => ⟨S4152960x1, .i1⟩
  | .hbm, ⟨19, _⟩ => ⟨S4152960x1, .i1⟩
  | .hbm, ⟨20, _⟩ => ⟨S_, .i1⟩
  | .hbm, ⟨21, _⟩ => ⟨S4152960, .i1⟩
  | .hbm, ⟨22, _⟩ => ⟨S8x4152960, .f32⟩
  | .hbm, ⟨23, _⟩ => ⟨S8x4152960, .i1⟩
  | .hbm, ⟨24, _⟩ => ⟨S_, .f32⟩
  | .hbm, ⟨25, _⟩ => ⟨S8x4152960, .f32⟩
  | .hbm, ⟨26, _⟩ => ⟨S8x4152960, .f32⟩
  | .hbm, ⟨27, _⟩ => ⟨S8x4x1038240, .f32⟩
  | .hbm, ⟨28, _⟩ => ⟨S_, .i32⟩
  | .hbm, ⟨29, _⟩ => ⟨S_, .f32⟩
  | .hbm, ⟨30, _⟩ => ⟨S8x4x1048576, .f32⟩
  | .hbm, ⟨31, _⟩ => ⟨S_, .i32⟩
  | .hbm, ⟨32, _⟩ => ⟨S_, .f32⟩
  | .hbm, ⟨33, _⟩ => ⟨S4x1048576, .f32⟩
  | .hbm, ⟨34, _⟩ => ⟨S8x1048576, .f32⟩
  | .hbm, ⟨35, _⟩ => ⟨S8x1038240, .f32⟩
  | .local _ .vmem, ⟨0, _⟩ => ⟨S8x4x16384, .f32⟩
  | .local _ .vmem, ⟨1, _⟩ => ⟨S8x4x16384, .f32⟩
  | .local _ .vmem, ⟨2, _⟩ => ⟨S4x16384, .f32⟩
  | .local _ .vmem, ⟨3, _⟩ => ⟨S4x16384, .f32⟩
  | .local _ .vmem, ⟨4, _⟩ => ⟨S8x16384, .f32⟩
  | .local _ .vmem, ⟨5, _⟩ => ⟨S8x16384, .f32⟩
  | _, _ => ⟨S8x3145728, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_cst : Ref sig .tc := ⟨.hbm, 24, rfl⟩
abbrev main_call0_v15 : Ref sig .tc := ⟨.hbm, 25, rfl⟩
abbrev main_v1 : Ref sig .tc := ⟨.hbm, 26, rfl⟩
abbrev main_v2 : Ref sig .tc := ⟨.hbm, 27, rfl⟩
abbrev main_c : Ref sig .tc := ⟨.hbm, 28, rfl⟩
abbrev main_call1_v0 : Ref sig .tc := ⟨.hbm, 29, rfl⟩
abbrev main_v3 : Ref sig .tc := ⟨.hbm, 30, rfl⟩
abbrev main_c_0 : Ref sig .tc := ⟨.hbm, 31, rfl⟩
abbrev main_call2_v0 : Ref sig .tc := ⟨.hbm, 32, rfl⟩
abbrev main_v4 : Ref sig .tc := ⟨.hbm, 33, rfl⟩
abbrev main_v5 : Ref sig .tc := ⟨.hbm, 34, rfl⟩
abbrev main_v6 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S8x4x16384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x16384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x16384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S4x1038240_S4152960 : S4x1038240.ShapeCasts S4152960
  bcast_S_S4152960 : S_.BroadcastsInDim S4152960 (![] : Fin 0 → Fin S4152960.rank)
  bcast_S4152960_S4152960x1_0 : S4152960.BroadcastsInDim S4152960x1 (![0] : Fin 1 → Fin S4152960x1.rank)
  bcast_S_S4152960x1 : S_.BroadcastsInDim S4152960x1 (![] : Fin 0 → Fin S4152960x1.rank)
  bcast_S1_S1x1_1 : S1.BroadcastsInDim S1x1 (![1] : Fin 1 → Fin S1x1.rank)
  bcast_S1x1_S4152960x1_0_1 : S1x1.BroadcastsInDim S4152960x1 (![0, 1] : Fin 2 → Fin S4152960x1.rank)
  reducesTo_S4152960x1_S4152960_d1 : S4152960x1.ReducesTo [1] S4152960
  h_S_ : 0 < S_.numel
  bcast_S4152960_S8x4152960_1 : S4152960.BroadcastsInDim S8x4152960 (![1] : Fin 1 → Fin S8x4152960.rank)
  bcast_S_S8x4152960 : S_.BroadcastsInDim S8x4152960 (![] : Fin 0 → Fin S8x4152960.rank)
  shapeCasts_S8x4152960_S8x4x1038240 : S8x4152960.ShapeCasts S8x4x1038240
  pads_S8x4x1038240_S8x4x1048576_000_000_0103360 : S8x4x1038240.Pads (![0, 0, 0] : Fin 3 → Nat) ![0, 0, 10336] ![0, 0, 0] S8x4x1048576
  pads_S4x1038240_S4x1048576_000_0103360 : S4x1038240.Pads (![0, 0] : Fin 2 → Nat) ![0, 10336] ![0, 0] S4x1048576
  inb_S8x4x16384_S8x4x16384_0_0_0 : ∀ a, (![0, 0, 0] : Fin 3 → Nat) a + S8x4x16384.size a ≤ S8x4x16384.size a
  h_S8x4x16384 : 0 < S8x4x16384.numel
  shapeCasts_S8x4x16384_S8x4x16384 : S8x4x16384.ShapeCasts S8x4x16384
  inb_S4x16384_S4x16384_0_0 : ∀ a, (![0, 0] : Fin 2 → Nat) a + S4x16384.size a ≤ S4x16384.size a
  h_S4x16384 : 0 < S4x16384.numel
  shapeCasts_S4x16384_S4x16384 : S4x16384.ShapeCasts S4x16384
  shapeCasts_S4x16384_S1x4x16384 : S4x16384.ShapeCasts S1x4x16384
  broadcasts_S1x4x16384_S8x4x16384 : S1x4x16384.Broadcasts S8x4x16384
  reduces_S8x4x16384_S8x16384 : S8x4x16384.Reduces [1] S8x16384
  inb_S8x16384_S8x16384_0_0 : ∀ a, (![0, 0] : Fin 2 → Nat) a + S8x16384.size a ≤ S8x16384.size a
  h_S8x16384 : 0 < S8x16384.numel
  slices_S8x1048576_S8x1038240_0_0 : S8x1048576.Slices ![0, 0] S8x1038240
  gather_S8x3145728_S4152960x1_S8x4152960_0_1_n_n_1_1_81_wf : GatherDims.WF S8x3145728 S4152960x1 S8x4152960 [0] [1] [] [1] [] 1 ![8, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x4x16384.size a ≤ S8x4x1048576.size a
  hwx0_0 : ∀ i : grid0.Coords, EltTy.bits .f32 = 32 ∨ (Rect.block (s := S8x4x1048576) S8x4x16384.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x16384.size a ≤ S4x1048576.size a
  hwx0_1 : ∀ i : grid0.Coords, EltTy.bits .f32 = 32 ∨ (Rect.block (s := S4x1048576) S4x16384.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x16384.size a ≤ S8x1048576.size a
  hwx0_2 : ∀ i : grid0.Coords, EltTy.bits .f32 = 32 ∨ (Rect.block (s := S8x1048576) S8x16384.size (cc0_transform_2 i) (hinb0_2 i)).WholeWords (EltTy.packing .f32)

variable [Facts₀]

def gather_S8x3145728_S4152960x1_S8x4152960_0_1_n_n_1_1_81 : GatherDims S8x3145728 S4152960x1 S8x4152960 where
  offsetDims := [0]
  collapsedSliceDims := [1]
  operandBatchingDims := []
  startIndicesBatchingDims := []
  startIndexMap := [1]
  indexVectorDim := 1
  sliceSizes := ![8, 1]
  wf := gather_S8x3145728_S4152960x1_S8x4152960_0_1_n_n_1_1_81_wf

abbrev win0_0 : Pipeline.Window sig grid0 :=
  Pipeline.Window.ofSpec (Memref.whole main_v3) S8x4x16384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S4x16384.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S8x16384.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x3145728 : Shape := ⟨2, ![8, 3145728]⟩
abbrev S4x1038240 : Shape := ⟨2, ![4, 1038240]⟩
abbrev S4152960 : Shape := ⟨1, ![4152960]⟩
abbrev S_ : Shape := ⟨0, ![]⟩
abbrev S4152960x1 : Shape := ⟨2, ![4152960, 1]⟩
abbrev S1 : Shape := ⟨1, ![1]⟩
abbrev S1x1 : Shape := ⟨2, ![1, 1]⟩
abbrev S8x4152960 : Shape := ⟨2, ![8, 4152960]⟩
abbrev S8x4x1038240 : Shape := ⟨3, ![8, 4, 1038240]⟩
abbrev S1x4x1038240 : Shape := ⟨3, ![1, 4, 1038240]⟩
abbrev S8x1038240 : Shape := ⟨2, ![8, 1038240]⟩

abbrev nBuf : Space → Nat
  | .hbm => 33
  | .vmem => 0
  | .smem => 0
  | _ => 0

abbrev bufTy : (tb : Table) → Fin (tcTables nBuf tb) → BufTy
  | .hbm, ⟨0, _⟩ => ⟨S8x3145728, .f32⟩
  | .hbm, ⟨1, _⟩ => ⟨S4x1038240, .f32⟩
  | .hbm, ⟨2, _⟩ => ⟨S4x1038240, .i32⟩
  | .hbm, ⟨3, _⟩ => ⟨S4152960, .i32⟩
  | .hbm, ⟨4, _⟩ => ⟨S_, .i32⟩
  | .hbm, ⟨5, _⟩ => ⟨S4152960, .i32⟩
  | .hbm, ⟨6, _⟩ => ⟨S4152960, .i1⟩
  | .hbm, ⟨7, _⟩ => ⟨S_, .i32⟩
  | .hbm, ⟨8, _⟩ => ⟨S4152960, .i32⟩
  | .hbm, ⟨9, _⟩ => ⟨S4152960, .i32⟩
  | .hbm, ⟨10, _⟩ => ⟨S4152960, .i32⟩
  | .hbm, ⟨11, _⟩ => ⟨S4152960x1, .i32⟩
  | .hbm, ⟨12, _⟩ => ⟨S1, .i32⟩
  | .hbm, ⟨13, _⟩ => ⟨S_, .i32⟩
  | .hbm, ⟨14, _⟩ => ⟨S4152960x1, .i32⟩
  | .hbm, ⟨15, _⟩ => ⟨S4152960x1, .i1⟩
  | .hbm, ⟨16, _⟩ => ⟨S1x1, .i32⟩
  | .hbm, ⟨17, _⟩ => ⟨S4152960x1, .i32⟩
  | .hbm, ⟨18, _⟩ => ⟨S4152960x1, .i1⟩
  | .hbm, ⟨19, _⟩ => ⟨S4152960x1, .i1⟩
  | .hbm, ⟨20, _⟩ => ⟨S_, .i1⟩
  | .hbm, ⟨21, _⟩ => ⟨S4152960, .i1⟩
  | .hbm, ⟨22, _⟩ => ⟨S8x4152960, .f32⟩
  | .hbm, ⟨23, _⟩ => ⟨S8x4152960, .i1⟩
  | .hbm, ⟨24, _⟩ => ⟨S_, .f32⟩
  | .hbm, ⟨25, _⟩ => ⟨S8x4152960, .f32⟩
  | .hbm, ⟨26, _⟩ => ⟨S8x4152960, .f32⟩
  | .hbm, ⟨27, _⟩ => ⟨S8x4x1038240, .f32⟩
  | .hbm, ⟨28, _⟩ => ⟨S1x4x1038240, .f32⟩
  | .hbm, ⟨29, _⟩ => ⟨S8x4x1038240, .f32⟩
  | .hbm, ⟨30, _⟩ => ⟨S8x4x1038240, .f32⟩
  | .hbm, ⟨31, _⟩ => ⟨S_, .f32⟩
  | .hbm, ⟨32, _⟩ => ⟨S8x1038240, .f32⟩
  | _, _ => ⟨S8x3145728, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_cst : Ref sig .tc := ⟨.hbm, 24, rfl⟩
abbrev main_call0_v15 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_cst : Ref sig .tc := ⟨.hbm, 31, rfl⟩
abbrev main_v6 : Ref sig .tc := ⟨.hbm, 32, rfl⟩

abbrev nD : Nat := 1
abbrev τ : Topo := Topo.v7x

variable {F : FTy → Type} [FloatOps F]

class Facts₀ : Prop where
  shapeCasts_S4x1038240_S4152960 : S4x1038240.ShapeCasts S4152960
  bcast_S_S4152960 : S_.BroadcastsInDim S4152960 (![] : Fin 0 → Fin S4152960.rank)
  bcast_S4152960_S4152960x1_0 : S4152960.BroadcastsInDim S4152960x1 (![0] : Fin 1 → Fin S4152960x1.rank)
  bcast_S_S4152960x1 : S_.BroadcastsInDim S4152960x1 (![] : Fin 0 → Fin S4152960x1.rank)
  bcast_S1_S1x1_1 : S1.BroadcastsInDim S1x1 (![1] : Fin 1 → Fin S1x1.rank)
  bcast_S1x1_S4152960x1_0_1 : S1x1.BroadcastsInDim S4152960x1 (![0, 1] : Fin 2 → Fin S4152960x1.rank)
  reducesTo_S4152960x1_S4152960_d1 : S4152960x1.ReducesTo [1] S4152960
  h_S_ : 0 < S_.numel
  bcast_S4152960_S8x4152960_1 : S4152960.BroadcastsInDim S8x4152960 (![1] : Fin 1 → Fin S8x4152960.rank)
  bcast_S_S8x4152960 : S_.BroadcastsInDim S8x4152960 (![] : Fin 0 → Fin S8x4152960.rank)
  shapeCasts_S8x4152960_S8x4x1038240 : S8x4152960.ShapeCasts S8x4x1038240
  bcast_S4x1038240_S1x4x1038240_1_2 : S4x1038240.BroadcastsInDim S1x4x1038240 (![1, 2] : Fin 2 → Fin S1x4x1038240.rank)
  bcast_S1x4x1038240_S8x4x1038240_0_1_2 : S1x4x1038240.BroadcastsInDim S8x4x1038240 (![0, 1, 2] : Fin 3 → Fin S8x4x1038240.rank)
  reducesTo_S8x4x1038240_S8x1038240_d1 : S8x4x1038240.ReducesTo [1] S8x1038240
  gather_S8x3145728_S4152960x1_S8x4152960_0_1_n_n_1_1_81_wf : GatherDims.WF S8x3145728 S4152960x1 S8x4152960 [0] [1] [] [1] [] 1 ![8, 1]

variable [Facts₀]

def gather_S8x3145728_S4152960x1_S8x4152960_0_1_n_n_1_1_81 : GatherDims S8x3145728 S4152960x1 S8x4152960 where
  offsetDims := [0]
  collapsedSliceDims := [1]
  operandBatchingDims := []
  startIndicesBatchingDims := []
  startIndexMap := [1]
  indexVectorDim := 1
  sliceSizes := ![8, 1]
  wf := gather_S8x3145728_S4152960x1_S8x4152960_0_1_n_n_1_1_81_wf

class Facts : Prop extends Facts₀ where

variable [Facts]
-- ==== Proof.Stencil.lean ====
/-
  The mathematics both programs share, over literal shapes and importing no program.

  * `takeCols x idx`: `take` along the last axis of an [8, 3145728] array at 4152960 flat indices — a negative
    index is moved up by the extent, one source column is gathered per index, and an entry whose moved index is
    still outside [0, 3145727] is the fill pattern instead. It is carried as ONE function: both programs apply
    it to the same two arguments, so nothing here ever looks inside it.
  * `selected x pix`: those columns regrouped as [batch 8, stencil 4, target 1038240].
  * `wsum sel w`: the weighted stencil sum, out[b, p] = Σ_k sel[b, k, p] · w[k, p], over the extended reals.
    Addition there is commutative and associative, so the order of the four terms is immaterial, and no
    finiteness is needed anywhere.
-/
import Idealize.ShloMosaic.PureOps
import Idealize.ShloMosaic.PureOps.Ideal
import Idealize.ShloMosaic.Lib.ValueIdx

noncomputable section

namespace Cert.Stencil

open Idealize.ShloMosaic Idealize.ShloMosaic.ValueIdx

abbrev SX : Shape := ⟨2, ![8, 3145728]⟩
abbrev SW : Shape := ⟨2, ![4, 1038240]⟩
abbrev SFlat : Shape := ⟨1, ![4152960]⟩
abbrev SFlatCol : Shape := ⟨2, ![4152960, 1]⟩
abbrev S0 : Shape := ⟨0, ![]⟩
abbrev S1 : Shape := ⟨1, ![1]⟩
abbrev S1x1 : Shape := ⟨2, ![1, 1]⟩
abbrev STaken : Shape := ⟨2, ![8, 4152960]⟩
abbrev SSel : Shape := ⟨3, ![8, 4, 1038240]⟩
abbrev SOut : Shape := ⟨2, ![8, 1038240]⟩

theorem casts_flat : SW.ShapeCasts SFlat := by decide
theorem bc_scalar_flat : S0.BroadcastsInDim SFlat (![] : Fin 0 → Fin SFlat.rank) := by decide
theorem bc_flat_col : SFlat.BroadcastsInDim SFlatCol (![0] : Fin 1 → Fin SFlatCol.rank) := by decide
theorem bc_scalar_col : S0.BroadcastsInDim SFlatCol (![] : Fin 0 → Fin SFlatCol.rank) := by decide
theorem bc_one : S1.BroadcastsInDim S1x1 (![1] : Fin 1 → Fin S1x1.rank) := by decide
theorem bc_one_col : S1x1.BroadcastsInDim SFlatCol (![0, 1] : Fin 2 → Fin SFlatCol.rank) := by decide
theorem red_col : SFlatCol.ReducesTo [1] SFlat := by decide
theorem pos_scalar : 0 < S0.numel := by decide
theorem bc_flat_taken : SFlat.BroadcastsInDim STaken (![1] : Fin 1 → Fin STaken.rank) := by decide
theorem bc_scalar_taken : S0.BroadcastsInDim STaken (![] : Fin 0 → Fin STaken.rank) := by decide
theorem casts_sel : STaken.ShapeCasts SSel := by decide
theorem gather_wf : GatherDims.WF SX SFlatCol STaken [0] [1] [] [1] [] 1 ![8, 1] := by decide

/-- One column of the source per index: the gather's dimension numbers. -/
def gatherCols : GatherDims SX SFlatCol STaken where
  offsetDims := [0]
  collapsedSliceDims := [1]
  operandBatchingDims := []
  startIndicesBatchingDims := []
  startIndexMap := [1]
  indexVectorDim := 1
  sliceSizes := ![8, 1]
  wf := gather_wf

variable {F : FTy → Type} [FloatOps F]

/-- `take` along the last axis (see the header). -/
def takeCols (x : FVec F SX .f32) (idx : IVec SFlat 32) : FVec F STaken .f32 :=
  let wrapped : IVec SFlat 32 :=
    select (cmpi .slt idx (broadcastInDim SFlat ![] bc_scalar_flat (constantI S0 32 0#32)))
      (addi idx (broadcastInDim SFlat ![] bc_scalar_flat (constantI S0 32 3145728#32))) idx
  let col : IVec SFlatCol 32 := broadcastInDim SFlatCol ![0] bc_flat_col wrapped
  let inRange : IVec SFlat 1 :=
    Host.reduce IntOp.andi
      (andi (cmpi .sge col (broadcastInDim SFlatCol ![] bc_scalar_col (constantI S0 32 0#32)))
        (cmpi .sle col (broadcastInDim SFlatCol ![0, 1] bc_one_col
          (broadcastInDim S1x1 ![1] bc_one (constantI S1 32 3145727#32)))))
      (constantI S0 1 1#1) red_col pos_scalar
  select (broadcastInDim STaken ![1] bc_flat_taken inRange)
    (Host.gather gatherCols x col)
    (broadcastInDim STaken ![] bc_scalar_taken (constant S0 .f32 0x7FC00000#32))

/-- The gathered columns regrouped as [batch, stencil, target]. -/
def selected (x : FVec F SX .f32) (pix : IVec SW 32) : FVec F SSel .f32 :=
  shapeCast SSel (takeCols x (shapeCast SFlat pix casts_flat)) casts_sel

/-- The weighted stencil sum at one batch row and one target column, for any target extent. -/
def wsumAt {n : Nat} (sel : (⟨3, ![8, 4, n]⟩ : Shape).Idx → EReal) (w : (⟨2, ![4, n]⟩ : Shape).Idx → EReal)
    (b : Fin 8) (p : Fin n) : EReal :=
  ∑ k : Fin 4, sel (ix3 b k p) * w (ix2 k p)

/-- The weighted stencil sum as an array. -/
def wsum {n : Nat} (sel : (⟨3, ![8, 4, n]⟩ : Shape).Idx → EReal) (w : (⟨2, ![4, n]⟩ : Shape).Idx → EReal) :
    (⟨2, ![8, n]⟩ : Shape).Idx → EReal :=
  fun i => wsumAt sel w (i 0) (i 1)

theorem wsum_apply {n : Nat} (sel : (⟨3, ![8, 4, n]⟩ : Shape).Idx → EReal) (w : (⟨2, ![4, n]⟩ : Shape).Idx → EReal)
    (b : Fin 8) (p : Fin n) : wsum sel w (ix2 b p) = wsumAt sel w b p := rfl

end Cert.Stencil

end
-- ==== Proof.RefRun.lean ====
/-
  The reference program's run, read back. Its @main is a straight line once its two module-local functions
  are unfolded at their call sites: the index table is flattened, `take` (negative indices wrapped by the
  extent, the gather along the last axis, entries whose index is out of range replaced by the fill pattern)
  picks one source column per flattened index, the result is regrouped as [batch, stencil, target], multiplied
  by the weights broadcast over the batch, and summed over the stencil axis from zero.
  Every weakly fair execution terminates with the result buffer at that composed term of the three argument
  arrays, the arguments unchanged.
-/
import proofs.«110964_j9251359556349_1_alg».proof.Proof.Gen.ReferenceIdeal
import Idealize.ShloMosaic.Lib.StableHlo.Run
import proofs.«110964_j9251359556349_1_alg».proof.Proof.Stencil

noncomputable section

namespace Cert.ReferenceIdeal.HostRun

open Cert.ReferenceIdeal Cert.ReferenceIdeal.Gen Idealize.ShloMosaic Idealize.ShloMosaic.TcCoe Idealize.SL.Sem Idealize.ShloMosaic.StableHlo

variable {F : FTy → Type} [FloatOps F]

/-- The reference's result: the selected values times the weights (broadcast over the batch), summed over the
    stencil axis from zero. -/
def result (x : FVec F S8x3145728 .f32) (w : FVec F S4x1038240 .f32) (pix : IVec S4x1038240 32) : FVec F S8x1038240 .f32 :=
  Host.reduceAdd
    (mulf (Cert.Stencil.selected x pix)
      (broadcastInDim S8x4x1038240 ![0, 1, 2] bcast_S1x4x1038240_S8x4x1038240_0_1_2
        (broadcastInDim S1x4x1038240 ![1, 2] bcast_S4x1038240_S1x4x1038240_1_2 w)))
    (constant S_ .f32 0x00000000#32) reducesTo_S8x4x1038240_S8x1038240_d1 h_S_

/-- @main's 30 operations in order, the call of `take` (and, inside it, of `where`) unfolded at its site over the
    call's own buffers. -/
abbrev ops : List (HloOp τ sig (Elt F)) :=
  [ reshape main_arg2 main_v0 rfl shapeCasts_S4x1038240_S4152960,
    nullary main_call0_c (constantI S_ 32 0#32 : (⟨S_, .i32⟩ : BufTy).Contents (Elt F)),
    unary main_call0_c main_call0_v0 (broadcastInDim S4152960 ![] bcast_S_S4152960 : (⟨S_, .i32⟩ : BufTy).Contents (Elt F) → (⟨S4152960, .i32⟩ : BufTy).Contents (Elt F)),
    binary main_v0 main_call0_v0 main_call0_v1 (cmpi .slt : (⟨S4152960, .i32⟩ : BufTy).Contents (Elt F) → (⟨S4152960, .i32⟩ : BufTy).Contents (Elt F) → (⟨S4152960, .i1⟩ : BufTy).Contents (Elt F)),
    nullary main_call0_c_0 (constantI S_ 32 3145728#32 : (⟨S_, .i32⟩ : BufTy).Contents (Elt F)),
    unary main_call0_c_0 main_call0_v2 (broadcastInDim S4152960 ![] bcast_S_S4152960 : (⟨S_, .i32⟩ : BufTy).Contents (Elt F) → (⟨S4152960, .i32⟩ : BufTy).Contents (Elt F)),
    binary main_v0 main_call0_v2 main_call0_v3 (addi : (⟨S4152960, .i32⟩ : BufTy).Contents (Elt F) → (⟨S4152960, .i32⟩ : BufTy).Contents (Elt F) → (⟨S4152960, .i32⟩ : BufTy).Contents (Elt F)),
    ternary main_call0_v1 main_call0_v3 main_v0 main_call0_v4 (select : (⟨S4152960, .i1⟩ : BufTy).Contents (Elt F) → (⟨S4152960, .i32⟩ : BufTy).Contents (Elt F) → (⟨S4152960, .i32⟩ : BufTy).Contents (Elt F) → (⟨S4152960, .i32⟩ : BufTy).Contents (Elt F)),
    unary main_call0_v4 main_call0_v5 (broadcastInDim S4152960x1 ![0] bcast_S4152960_S4152960x1_0 : (⟨S4152960, .i32⟩ : BufTy).Contents (Elt F) → (⟨S4152960x1, .i32⟩ : BufTy).Contents (Elt F)),
    nullary main_call0_c_1 (constantI S1 32 3145727#32 : (⟨S1, .i32⟩ : BufTy).Contents (Elt F)),
    nullary main_call0_c_2 (constantI S_ 32 0#32 : (⟨S_, .i32⟩ : BufTy).Contents (Elt F)),
    unary main_call0_c_2 main_call0_v6 (broadcastInDim S4152960x1 ![] bcast_S_S4152960x1 : (⟨S_, .i32⟩ : BufTy).Contents (Elt F) → (⟨S4152960x1, .i32⟩ : BufTy).Contents (Elt F)),
    binary main_call0_v5 main_call0_v6 main_call0_v7 (cmpi .sge : (⟨S4152960x1, .i32⟩ : BufTy).Contents (Elt F) → (⟨S4152960x1, .i32⟩ : BufTy).Contents (Elt F) → (⟨S4152960x1, .i1⟩ : BufTy).Contents (Elt F)),
    unary main_call0_c_1 main_call0_v8 (broadcastInDim S1x1 ![1] bcast_S1_S1x1_1 : (⟨S1, .i32⟩ : BufTy).Contents (Elt F) → (⟨S1x1, .i32⟩ : BufTy).Contents (Elt F)),
    unary main_call0_v8 main_call0_v9 (broadcastInDim S4152960x1 ![0, 1] bcast_S1x1_S4152960x1_0_1 : (⟨S1x1, .i32⟩ : BufTy).Contents (Elt F) → (⟨S4152960x1, .i32⟩ : BufTy).Contents (Elt F)),
    binary main_call0_v5 main_call0_v9 main_call0_v10 (cmpi .sle : (⟨S4152960x1, .i32⟩ : BufTy).Contents (Elt F) → (⟨S4152960x1, .i32⟩ : BufTy).Contents (Elt F) → (⟨S4152960x1, .i1⟩ : BufTy).Contents (Elt F)),
    binary main_call0_v7 main_call0_v10 main_call0_v11 (andi : (⟨S4152960x1, .i1⟩ : BufTy).Contents (Elt F) → (⟨S4152960x1, .i1⟩ : BufTy).Contents (Elt F) → (⟨S4152960x1, .i1⟩ : BufTy).Contents (Elt F)),
    nullary main_call0_c_3 (constantI S_ 1 1#1 : (⟨S_, .i1⟩ : BufTy).Contents (Elt F)),
    binary main_call0_v11 main_call0_c_3 main_call0_v12 ((fun x v => Host.reduce IntOp.andi x v reducesTo_S4152960x1_S4152960_d1 h_S_) : (⟨S4152960x1, .i1⟩ : BufTy).Contents (Elt F) → (⟨S_, .i1⟩ : BufTy).Contents (Elt F) → (⟨S4152960, .i1⟩ : BufTy).Contents (Elt F)),
    binary main_arg0 main_call0_v5 main_call0_v13 ((fun x i => Host.gather gather_S8x3145728_S4152960x1_S8x4152960_0_1_n_n_1_1_81 x i) : (⟨S8x3145728, .f32⟩ : BufTy).Contents (Elt F) → (⟨S4152960x1, .i32⟩ : BufTy).Contents (Elt F) → (⟨S8x4152960, .f32⟩ : BufTy).Contents (Elt F)),
    unary main_call0_v12 main_call0_v14 (broadcastInDim S8x4152960 ![1] bcast_S4152960_S8x4152960_1 : (⟨S4152960, .i1⟩ : BufTy).Contents (Elt F) → (⟨S8x4152960, .i1⟩ : BufTy).Contents (Elt F)),
    nullary main_call0_cst (constant S_ .f32 0x7FC00000#32 : (⟨S_, .f32⟩ : BufTy).Contents (Elt F)),
    unary main_call0_cst main_call0_v15 (broadcastInDim S8x4152960 ![] bcast_S_S8x4152960 : (⟨S_, .f32⟩ : BufTy).Contents (Elt F) → (⟨S8x4152960, .f32⟩ : BufTy).Contents (Elt F)),
    ternary main_call0_v14 main_call0_v13 main_call0_v15 main_v1 (select : (⟨S8x4152960, .i1⟩ : BufTy).Contents (Elt F) → (⟨S8x4152960, .f32⟩ : BufTy).Contents (Elt F) → (⟨S8x4152960, .f32⟩ : BufTy).Contents (Elt F) → (⟨S8x4152960, .f32⟩ : BufTy).Contents (Elt F)),
    reshape main_v1 main_v2 rfl shapeCasts_S8x4152960_S8x4x1038240,
    unary main_arg1 main_v3 (broadcastInDim S1x4x1038240 ![1, 2] bcast_S4x1038240_S1x4x1038240_1_2 : (⟨S4x1038240, .f32⟩ : BufTy).Contents (Elt F) → (⟨S1x4x1038240, .f32⟩ : BufTy).Contents (Elt F)),
    unary main_v3 main_v4 (broadcastInDim S8x4x1038240 ![0, 1, 2] bcast_S1x4x1038240_S8x4x1038240_0_1_2 : (⟨S1x4x1038240, .f32⟩ : BufTy).Contents (Elt F) → (⟨S8x4x1038240, .f32⟩ : BufTy).Contents (Elt F)),
    binary main_v2 main_v4 main_v5 (mulf : (⟨S8x4x1038240, .f32⟩ : BufTy).Contents (Elt F) → (⟨S8x4x1038240, .f32⟩ : BufTy).Contents (Elt F) → (⟨S8x4x1038240, .f32⟩ : BufTy).Contents (Elt F)),
    nullary main_cst (constant S_ .f32 0x00000000#32),
    binary main_v5 main_cst main_v6 ((fun x v => Host.reduceAdd x v reducesTo_S8x4x1038240_S8x1038240_d1 h_S_) : (⟨S8x4x1038240, .f32⟩ : BufTy).Contents (Elt F) → (⟨S_, .f32⟩ : BufTy).Contents (Elt F) → (⟨S8x1038240, .f32⟩ : BufTy).Contents (Elt F)) ]

attribute [local irreducible] Host.reduce Host.gather in
set_option maxRecDepth 65536 in
/-- @main is that straight line: the two functions' bodies unfolded at their calls, the sequencing reassociated. -/
theorem main_eq (c : Dev nD) : main (F := F) c = seq ops := by
  simp only [main, fn_take.body, fn_where.body, seq, bind_assoc, pure_bind]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨reshape_bufs_sub .., nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub .., unary_bufs_sub ..,
    unary_bufs_sub .., binary_bufs_sub .., binary_bufs_sub .., nullary_bufs_sub .., binary_bufs_sub .., binary_bufs_sub .., unary_bufs_sub ..,
    nullary_bufs_sub .., unary_bufs_sub .., ternary_bufs_sub .., reshape_bufs_sub .., unary_bufs_sub .., unary_bufs_sub .., binary_bufs_sub ..,
    nullary_bufs_sub .., binary_bufs_sub ..⟩

attribute [local irreducible] Host.reduce Host.gather in
/-- The fold of the operations at the result buffer is `result` of the argument buffers: the fold unrolled and
    each operation's result read at its own buffer, the range test and the gather never opened. -/
theorem out_eq (V : Valuation τ sig (Elt F)) :
    after ops V (Proc.devRef .tc main_v6)
      = result (V (Proc.devRef .tc main_arg0)) (V (Proc.devRef .tc main_arg1)) (V (Proc.devRef .tc main_arg2)) := by
  after_results_simp
  rfl

theorem arg0_eq (V : Valuation τ sig (Elt F)) : after ops V (Proc.devRef .tc main_arg0) = V (Proc.devRef .tc main_arg0) := by
  after_results
theorem arg1_eq (V : Valuation τ sig (Elt F)) : after ops V (Proc.devRef .tc main_arg1) = V (Proc.devRef .tc main_arg1) := by
  after_results
theorem arg2_eq (V : Valuation τ sig (Elt F)) : after ops V (Proc.devRef .tc main_arg2) = V (Proc.devRef .tc main_arg2) := by
  after_results

/-- On the one device, for any float values, from any memory with zero counters: every weakly fair execution of
    @main terminates with the result at `result` of the arguments' launch contents and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v6)
          = result (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v6).trans (out_eq _), (h c main_arg0).trans (arg0_eq _),
      (h c main_arg1).trans (arg1_eq _), (h c main_arg2).trans (arg2_eq _)⟩)
    (run_seq scopedRefs_eq scopedSems_eq defs main (fun _ => ops) main_eq (fun _ => ops_sub) m ρ)

end Cert.ReferenceIdeal.HostRun

end
-- ==== Proof.RefValue.lean ====
/-
  The reference's result, index by index. Its last operation sums, over the stencil axis and from the zero
  word, the product of the selected values with the weights broadcast over the batch axis. Over the extended
  reals the zero word is 0 and the sum is the four products added, so the entry at batch row b and target
  column p is Σ_k sel[b, k, p] · w[k, p]: the weighted stencil sum `Cert.Stencil.wsum`.
-/
import proofs.«110964_j9251359556349_1_alg».proof.Proof.RefRun
import Idealize.ShloMosaic.PureOps.Ideal.Laws
import Idealize.ShloMosaic.Lib.ValueIdx
import Idealize.ShloMosaic.Lib.IdealHost
import Idealize.ShloMosaic.Lib.Pipeline.Value

noncomputable section

namespace Cert.ReferenceIdeal.HostValue

open Cert.ReferenceIdeal Cert.ReferenceIdeal.Gen Idealize.ShloMosaic Idealize.ShloMosaic.ValueIdx

/-- The reduction over the stencil axis, as an index relation between the two shapes. -/
theorem reduces_stencil : S8x4x1038240.Reduces [1] S8x1038240 := by decide

/-- The index the reduction reads for output (b, p) and stencil position k is (b, k, p). -/
theorem lift_eq (h : S8x4x1038240.Reduces [1] S8x1038240) (b : Fin 8) (p : Fin 1038240) (k : Fin 4) :
    h.lift (ix2 b p) k = ix3 b k p := by
  funext a
  apply Fin.ext
  match a with
  | ⟨0, _⟩ => rfl
  | ⟨1, _⟩ => rfl
  | ⟨2, _⟩ => rfl

/-- The weights broadcast to [1, 4, P] and then over the batch axis read, at (b, k, p), the weights at (k, p). -/
theorem weights_bcast_apply (w : FVec Ideal S4x1038240 .f32) (b : Fin 8) (k : Fin 4) (p : Fin 1038240) :
    broadcastInDim S8x4x1038240 ![0, 1, 2] bcast_S1x4x1038240_S8x4x1038240_0_1_2
        (broadcastInDim S1x4x1038240 ![1, 2] bcast_S4x1038240_S1x4x1038240_1_2 w) (ix3 b k p)
      = w (ix2 k p) := by
  refine (broadcastInDim_apply _ bcast_S1x4x1038240_S8x4x1038240_0_1_2 _ (ix3 b k p) (ix3 (0 : Fin 1) k p) (fun a => ?_)).trans ?_
  · match a with
    | ⟨0, _⟩ => rfl
    | ⟨1, _⟩ => rfl
    | ⟨2, _⟩ => rfl
  · refine broadcastInDim_apply _ bcast_S4x1038240_S1x4x1038240_1_2 _ (ix3 (0 : Fin 1) k p) (ix2 k p) (fun a => ?_)
    match a with
    | ⟨0, _⟩ => rfl
    | ⟨1, _⟩ => rfl

/-- THE REFERENCE IS THE WEIGHTED STENCIL SUM of the selected values and the weights. -/
theorem result_eq (x : FVec Ideal S8x3145728 .f32) (w : FVec Ideal S4x1038240 .f32) (pix : IVec S4x1038240 32) :
    HostRun.result (F := Ideal) x w pix = Cert.Stencil.wsum (Cert.Stencil.selected x pix) w := by
  funext i
  obtain ⟨b, p, rfl⟩ : ∃ (b : Fin 8) (p : Fin 1038240), i = ix2 b p := ⟨i 0, i 1, eq_ix2 i⟩
  rw [Cert.Stencil.wsum_apply]
  unfold HostRun.result Cert.Stencil.wsumAt
  refine (hostReduceAdd_apply _ _ reducesTo_S8x4x1038240_S8x1038240_d1 h_S_ (ix2 b p)).trans ?_
  refine (Ideal.hostReduceAdd_single reducesTo_S8x4x1038240_S8x1038240_d1 reduces_stencil _ _ (ix2 b p)).trans ?_
  show Ideal.ofBits .f32 0x00000000#32 + ∑ k : Fin 4, _ = _
  rw [Ideal.ofBits_zero_f32, zero_add]
  refine Finset.sum_congr rfl fun k _ => ?_
  rw [lift_eq, mulf_apply, weights_bcast_apply]

end Cert.ReferenceIdeal.HostValue

end
-- ==== Proof.KernelBody.lean ====
/-
  The kernel body's one stored value, read at an index. The body loads the [8, 4, 16384] block of selected
  values and the [4, 16384] block of weights, multiplies the first by the second broadcast over the batch axis,
  and sums over the stencil axis from zero. Over the extended reals that sum is the four products added, so the
  entry at batch row b and lane q is Σ_k sel[b, k, q] · w[k, q].
-/
import proofs.«110964_j9251359556349_1_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.StencilBody

open Cert.KernelIdeal Cert.KernelIdeal.Gen Idealize.ShloMosaic Idealize.ShloMosaic.ValueIdx

/-- The index the reduction over the stencil axis reads for output (b, q) and stencil position k is (b, k, q). -/
theorem lift_eq (h : S8x4x16384.Reduces [1] S8x16384) (b : Fin 8) (q : Fin 16384) (k : Fin 4) :
    h.lift (ix2 b q) k = ix3 b k q := by
  funext a
  apply Fin.ext
  match a with
  | ⟨0, _⟩ => rfl
  | ⟨1, _⟩ => rfl
  | ⟨2, _⟩ => rfl

/-- The weights' block broadcast over the batch axis reads, at (b, k, q), the block at (k, q). -/
theorem weights_bcast_apply (x1 : FVec Ideal S4x16384 .f32) (b : Fin 8) (k : Fin 4) (q : Fin 16384) :
    broadcastTo S8x4x16384
        (shapeCast S1x4x16384 (shapeCast S4x16384 x1 shapeCasts_S4x16384_S4x16384) shapeCasts_S4x16384_S1x4x16384)
        broadcasts_S1x4x16384_S8x4x16384 (ix3 b k q)
      = x1 (ix2 k q) := by
  refine (broadcastTo_apply _ broadcasts_S1x4x16384_S8x4x16384 (ix3 b k q) (ix3 (0 : Fin 1) k q) (fun a => ?_)).trans ?_
  · match a with
    | ⟨0, _⟩ => rfl
    | ⟨1, _⟩ => rfl
    | ⟨2, _⟩ => rfl
  · rw [shapeCast_self]
    exact shapeCast_ab_1ab_apply x1 shapeCasts_S4x16384_S1x4x16384 (0 : Fin 1) k q

/-- THE PAYLOAD AT AN INDEX: Σ_k sel[b, k, q] · w[k, q]. -/
theorem pay_apply (x0 : FVec Ideal S8x4x16384 .f32) (x1 : FVec Ideal S4x16384 .f32) (b : Fin 8) (q : Fin 16384) :
    k0_pay1 (F := Ideal) x0 x1 (ix2 b q) = ∑ k : Fin 4, x0 (ix3 b k q) * x1 (ix2 k q) := by
  unfold k0_pay1
  refine (Ideal.multiReduction_add_single _ 0x00000000#32 reduces_S8x4x16384_S8x16384 (.inl rfl) rfl (ix2 b q)).trans ?_
  show ∑ k : Fin 4, _ = _
  refine Finset.sum_congr rfl fun k _ => ?_
  rw [lift_eq]
  show (shapeCast S8x4x16384 x0 shapeCasts_S8x4x16384_S8x4x16384 (ix3 b k q)) * _ = _
  rw [shapeCast_self]
  exact congrArg (x0 (ix3 b k q) * ·) (weights_bcast_apply x1 b k q)

end Cert.KernelIdeal.StencilBody

end
-- ==== Proof.KernelHost.lean ====
/-
  What the kernel's region finds in its two input arrays. Before the region the program flattens the index
  table, takes the columns (`Cert.Stencil.takeCols`), regroups them as [8, 4, 1038240], and pads both that array
  and the weights along the target axis with 10336 zeros up to 1048576 = 64 · 16384 lanes. At a target column
  below 1038240 a padded array reads the array it was padded from; the padding is never read by the result.
-/
import proofs.«110964_j9251359556349_1_alg».proof.Proof.Gen.KernelIdeal.Frame
import proofs.«110964_j9251359556349_1_alg».proof.Proof.Stencil
import Idealize.ShloMosaic.Lib.StableHlo.Run
import Idealize.ShloMosaic.Lib.KernelVsHost
import Idealize.ShloMosaic.Lib.ValueIdx

noncomputable section

namespace Cert.KernelIdeal.StencilHost

open Cert.KernelIdeal Cert.KernelIdeal.Gen Idealize.ShloMosaic Idealize.ShloMosaic.TcCoe Idealize.SL.Sem
open Idealize.ShloMosaic.StableHlo Idealize.ShloMosaic.ValueIdx

variable {F : FTy → Type} [FloatOps F]
variable (m : (ℓ : Loc nD τ sig) → Buf (Elt F) ℓ)

/-- The selected values as the region's program computes them from the launch contents. -/
abbrev sel (c : Dev nD) : FVec F S8x4x1038240 .f32 :=
  Cert.Stencil.selected (m ((c : Thread nD τ).loc main_arg0)) (m ((c : Thread nD τ).loc main_arg2))

/-- The weights as launched. -/
abbrev wts (c : Dev nD) : FVec F S4x1038240 .f32 := m ((c : Thread nD τ).loc main_arg1)

/-- The 31 host operations before the region, in order, each over its own buffers: the index table flattened,
    `take`'s 23 operations, the regrouping, and twice a zero, its conversion and a pad. -/
abbrev preOps : List (HloOp τ sig (Elt F)) :=
  [ reshape main_arg2 main_v0 rfl shapeCasts_S4x1038240_S4152960,
    nullary main_call0_c (constantI S_ 32 0#32 : (⟨S_, .i32⟩ : BufTy).Contents (Elt F)),
    unary main_call0_c main_call0_v0 (broadcastInDim S4152960 ![] bcast_S_S4152960 : (⟨S_, .i32⟩ : BufTy).Contents (Elt F) → (⟨S4152960, .i32⟩ : BufTy).Contents (Elt F)),
    binary main_v0 main_call0_v0 main_call0_v1 (cmpi .slt : (⟨S4152960, .i32⟩ : BufTy).Contents (Elt F) → (⟨S4152960, .i32⟩ : BufTy).Contents (Elt F) → (⟨S4152960, .i1⟩ : BufTy).Contents (Elt F)),
    nullary main_call0_c_0 (constantI S_ 32 3145728#32 : (⟨S_, .i32⟩ : BufTy).Contents (Elt F)),
    unary main_call0_c_0 main_call0_v2 (broadcastInDim S4152960 ![] bcast_S_S4152960 : (⟨S_, .i32⟩ : BufTy).Contents (Elt F) → (⟨S4152960, .i32⟩ : BufTy).Contents (Elt F)),
    binary main_v0 main_call0_v2 main_call0_v3 (addi : (⟨S4152960, .i32⟩ : BufTy).Contents (Elt F) → (⟨S4152960, .i32⟩ : BufTy).Contents (Elt F) → (⟨S4152960, .i32⟩ : BufTy).Contents (Elt F)),
    ternary main_call0_v1 main_call0_v3 main_v0 main_call0_v4 (select : (⟨S4152960, .i1⟩ : BufTy).Contents (Elt F) → (⟨S4152960, .i32⟩ : BufTy).Contents (Elt F) → (⟨S4152960, .i32⟩ : BufTy).Contents (Elt F) → (⟨S4152960, .i32⟩ : BufTy).Contents (Elt F)),
    unary main_call0_v4 main_call0_v5 (broadcastInDim S4152960x1 ![0] bcast_S4152960_S4152960x1_0 : (⟨S4152960, .i32⟩ : BufTy).Contents (Elt F) → (⟨S4152960x1, .i32⟩ : BufTy).Contents (Elt F)),
    nullary main_call0_c_1 (constantI S1 32 3145727#32 : (⟨S1, .i32⟩ : BufTy).Contents (Elt F)),
    nullary main_call0_c_2 (constantI S_ 32 0#32 : (⟨S_, .i32⟩ : BufTy).Contents (Elt F)),
    unary main_call0_c_2 main_call0_v6 (broadcastInDim S4152960x1 ![] bcast_S_S4152960x1 : (⟨S_, .i32⟩ : BufTy).Contents (Elt F) → (⟨S4152960x1, .i32⟩ : BufTy).Contents (Elt F)),
    binary main_call0_v5 main_call0_v6 main_call0_v7 (cmpi .sge : (⟨S4152960x1, .i32⟩ : BufTy).Contents (Elt F) → (⟨S4152960x1, .i32⟩ : BufTy).Contents (Elt F) → (⟨S4152960x1, .i1⟩ : BufTy).Contents (Elt F)),
    unary main_call0_c_1 main_call0_v8 (broadcastInDim S1x1 ![1] bcast_S1_S1x1_1 : (⟨S1, .i32⟩ : BufTy).Contents (Elt F) → (⟨S1x1, .i32⟩ : BufTy).Contents (Elt F)),
    unary main_call0_v8 main_call0_v9 (broadcastInDim S4152960x1 ![0, 1] bcast_S1x1_S4152960x1_0_1 : (⟨S1x1, .i32⟩ : BufTy).Contents (Elt F) → (⟨S4152960x1, .i32⟩ : BufTy).Contents (Elt F)),
    binary main_call0_v5 main_call0_v9 main_call0_v10 (cmpi .sle : (⟨S4152960x1, .i32⟩ : BufTy).Contents (Elt F) → (⟨S4152960x1, .i32⟩ : BufTy).Contents (Elt F) → (⟨S4152960x1, .i1⟩ : BufTy).Contents (Elt F)),
    binary main_call0_v7 main_call0_v10 main_call0_v11 (andi : (⟨S4152960x1, .i1⟩ : BufTy).Contents (Elt F) → (⟨S4152960x1, .i1⟩ : BufTy).Contents (Elt F) → (⟨S4152960x1, .i1⟩ : BufTy).Contents (Elt F)),
    nullary main_call0_c_3 (constantI S_ 1 1#1 : (⟨S_, .i1⟩ : BufTy).Contents (Elt F)),
    binary main_call0_v11 main_call0_c_3 main_call0_v12 ((fun x v => Host.reduce IntOp.andi x v reducesTo_S4152960x1_S4152960_d1 h_S_) : (⟨S4152960x1, .i1⟩ : BufTy).Contents (Elt F) → (⟨S_, .i1⟩ : BufTy).Contents (Elt F) → (⟨S4152960, .i1⟩ : BufTy).Contents (Elt F)),
    binary main_arg0 main_call0_v5 main_call0_v13 ((fun x i => Host.gather gather_S8x3145728_S4152960x1_S8x4152960_0_1_n_n_1_1_81 x i) : (⟨S8x3145728, .f32⟩ : BufTy).Contents (Elt F) → (⟨S4152960x1, .i32⟩ : BufTy).Contents (Elt F) → (⟨S8x4152960, .f32⟩ : BufTy).Contents (Elt F)),
    unary main_call0_v12 main_call0_v14 (broadcastInDim S8x4152960 ![1] bcast_S4152960_S8x4152960_1 : (⟨S4152960, .i1⟩ : BufTy).Contents (Elt F) → (⟨S8x4152960, .i1⟩ : BufTy).Contents (Elt F)),
    nullary main_call0_cst (constant S_ .f32 0x7FC00000#32 : (⟨S_, .f32⟩ : BufTy).Contents (Elt F)),
    unary main_call0_cst main_call0_v15 (broadcastInDim S8x4152960 ![] bcast_S_S8x4152960 : (⟨S_, .f32⟩ : BufTy).Contents (Elt F) → (⟨S8x4152960, .f32⟩ : BufTy).Contents (Elt F)),
    ternary main_call0_v14 main_call0_v13 main_call0_v15 main_v1 (select : (⟨S8x4152960, .i1⟩ : BufTy).Contents (Elt F) → (⟨S8x4152960, .f32⟩ : BufTy).Contents (Elt F) → (⟨S8x4152960, .f32⟩ : BufTy).Contents (Elt F) → (⟨S8x4152960, .f32⟩ : BufTy).Contents (Elt F)),
    reshape main_v1 main_v2 rfl shapeCasts_S8x4152960_S8x4x1038240,
    nullary main_c (constantI S_ 32 0#32 : (⟨S_, .i32⟩ : BufTy).Contents (Elt F)),
    unary main_c main_call1_v0 (sitofp .f32 : (⟨S_, .i32⟩ : BufTy).Contents (Elt F) → (⟨S_, .f32⟩ : BufTy).Contents (Elt F)),
    binary main_v2 main_call1_v0 main_v3 ((fun x v => pad S8x4x1048576 ![0, 0, 0] ![0, 0, 10336] ![0, 0, 0] x v pads_S8x4x1038240_S8x4x1048576_000_000_0103360 h_S_) : (⟨S8x4x1038240, .f32⟩ : BufTy).Contents (Elt F) → (⟨S_, .f32⟩ : BufTy).Contents (Elt F) → (⟨S8x4x1048576, .f32⟩ : BufTy).Contents (Elt F)),
    nullary main_c_0 (constantI S_ 32 0#32 : (⟨S_, .i32⟩ : BufTy).Contents (Elt F)),
    unary main_c_0 main_call2_v0 (sitofp .f32 : (⟨S_, .i32⟩ : BufTy).Contents (Elt F) → (⟨S_, .f32⟩ : BufTy).Contents (Elt F)),
    binary main_arg1 main_call2_v0 main_v4 ((fun x v => pad S4x1048576 ![0, 0] ![0, 10336] ![0, 0] x v pads_S4x1038240_S4x1048576_000_0103360 h_S_) : (⟨S4x1038240, .f32⟩ : BufTy).Contents (Elt F) → (⟨S_, .f32⟩ : BufTy).Contents (Elt F) → (⟨S4x1048576, .f32⟩ : BufTy).Contents (Elt F)) ]

attribute [local irreducible] Host.reduce Host.gather pad in
set_option maxRecDepth 65536 in
/-- The program's own listing of those operations, stretch by stretch, is this list: operation by operation the
    two spellings agree, a value's transport to its own buffer's type being the identity. -/
theorem preOps_eq : List.flatten [hostOps0, hostOps0_1, hostOps0_2, hostOps0_3, hostOps0_4, hostOps0_5]
    = (preOps : List (HloOp τ sig (Elt F))) := rfl

attribute [local irreducible] Host.reduce Host.gather pad in
set_option maxRecDepth 65536 in
/-- Window 0's array at the region's entry: the selected values padded with the converted integer zero. -/
theorem V_main_v3 (c : Dev nD) :
    (V m c main_v3 : (⟨S8x4x1048576, .f32⟩ : BufTy).Contents (Elt F))
      = pad S8x4x1048576 ![0, 0, 0] ![0, 0, 10336] ![0, 0, 0] (sel m c) (sitofp .f32 (constantI S_ 32 0#32))
          pads_S8x4x1038240_S8x4x1048576_000_000_0103360 h_S_ := by
  show after (List.flatten [hostOps0, hostOps0_1, hostOps0_2, hostOps0_3, hostOps0_4, hostOps0_5]) (fun b => m (c, b)) (Proc.devRef .tc main_v3) = _
  rw [preOps_eq]
  after_results_simp
  rfl

attribute [local irreducible] Host.reduce Host.gather pad in
set_option maxRecDepth 65536 in
/-- Window 1's array at the region's entry: the weights padded likewise. -/
theorem V_main_v4 (c : Dev nD) :
    (V m c main_v4 : (⟨S4x1048576, .f32⟩ : BufTy).Contents (Elt F))
      = pad S4x1048576 ![0, 0] ![0, 10336] ![0, 0] (wts m c) (sitofp .f32 (constantI S_ 32 0#32))
          pads_S4x1038240_S4x1048576_000_0103360 h_S_ := by
  show after (List.flatten [hostOps0, hostOps0_1, hostOps0_2, hostOps0_3, hostOps0_4, hostOps0_5]) (fun b => m (c, b)) (Proc.devRef .tc main_v4) = _
  rw [preOps_eq]
  after_results_simp

/-- The padded selected values at a target column below the unpadded extent. -/
theorem V_main_v3_apply (c : Dev nD) (b : Fin 8) (k : Fin 4) (p : Fin 1038240) (p' : Fin 1048576) (hp : p'.val = p.val) :
    (V m c main_v3 : (⟨S8x4x1048576, .f32⟩ : BufTy).Contents (Elt F)) (ix3 b k p') = sel m c (ix3 b k p) := by
  rw [V_main_v3]
  refine pad_apply_of_inside _ _ _ _ _ _ _ (ix3 b k p') (ix3 b k p) (fun a => ?_)
  match a with
  | ⟨0, _⟩ => show b.val = 0 + b.val * (0 + 1); omega
  | ⟨1, _⟩ => show k.val = 0 + k.val * (0 + 1); omega
  | ⟨2, _⟩ => show p'.val = 0 + p.val * (0 + 1); omega

/-- The padded weights at a target column below the unpadded extent. -/
theorem V_main_v4_apply (c : Dev nD) (k : Fin 4) (p : Fin 1038240) (p' : Fin 1048576) (hp : p'.val = p.val) :
    (V m c main_v4 : (⟨S4x1048576, .f32⟩ : BufTy).Contents (Elt F)) (ix2 k p') = wts m c (ix2 k p) := by
  rw [V_main_v4]
  refine pad_apply_of_inside _ _ _ _ _ _ _ (ix2 k p') (ix2 k p) (fun a => ?_)
  match a with
  | ⟨0, _⟩ => show k.val = 0 + k.val * (0 + 1); omega
  | ⟨1, _⟩ => show p'.val = 0 + p.val * (0 + 1); omega

end Cert.KernelIdeal.StencilHost

end
-- ==== Proof.KernelValue.lean ====
/-
  What the kernel's program leaves in its result buffer, over the extended reals.

  The region runs 64 grid points; point t reads lanes [16384·t, 16384·(t+1)) of the padded selected values and
  of the padded weights, and writes back the same lanes of the output, each entry the four products of the
  stencil added. The 64 blocks tile the padded [8, 1048576] output, so after the region it holds the weighted
  stencil sum of the two padded arrays. The program then keeps target columns below 1038240, where each padded
  array reads the array it was padded from: the result is the weighted stencil sum of the selected values and
  the weights, and the padding's zeros never enter it.
-/
import proofs.«110964_j9251359556349_1_alg».proof.Proof.Gen.KernelIdeal.Frame
import proofs.«110964_j9251359556349_1_alg».proof.Proof.Stencil
import proofs.«110964_j9251359556349_1_alg».proof.Proof.KernelBody
import proofs.«110964_j9251359556349_1_alg».proof.Proof.KernelHost
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.StencilValue

open Cert.KernelIdeal Cert.KernelIdeal.Gen Idealize.ShloMosaic Idealize.ShloMosaic.TcCoe Idealize.SL.Sem
open Idealize.ShloMosaic.StableHlo Idealize.ShloMosaic.ValueIdx
open Idealize.ShloMosaic.Pipeline (Dat)
open Cert.KernelIdeal.StencilHost (sel wts)

variable (m : (ℓ : Loc nD τ sig) → Buf (Elt Ideal) ℓ) (ρ : Dev nD → PrngReg)

theorem zeros2 : (![0, 0] : Fin 2 → Nat) = fun _ => 0 := funext fun a => by fin_cases a <;> rfl
theorem zeros3 : (![0, 0, 0] : Fin 3 → Nat) = fun _ => 0 := funext fun a => by fin_cases a <;> rfl

/-- The two padded arrays the region reads, at their literal types. -/
abbrev selPad (c : Dev nD) : FVec Ideal S8x4x1048576 .f32 := V m c main_v3
abbrev wtsPad (c : Dev nD) : FVec Ideal S4x1048576 .f32 := V m c main_v4

/-- The padded output array after the region: the weighted stencil sum of the padded arrays. -/
abbrev outPad (c : Dev nD) : FVec Ideal S8x1048576 .f32 := Cert.Stencil.wsum (selPad m c) (wtsPad m c)

/-- The printed index maps, decided over the grid: every window's block index is 0 on the leading axes and the
    point's number on the lane axis. -/
theorem idx_facts : ∀ t : Fin cfg0.N,
    win0_0.index t (0 : Fin 3) = 0 ∧ win0_0.index t (1 : Fin 3) = 0 ∧ win0_0.index t (2 : Fin 3) = t.val
    ∧ win0_1.index t (0 : Fin 2) = 0 ∧ win0_1.index t (1 : Fin 2) = t.val
    ∧ win0_2.index t (0 : Fin 2) = 0 ∧ win0_2.index t (1 : Fin 2) = t.val :=
  (by decide +kernel : ∀ t : Fin grid0.N, _)

theorem point_lt (t : Fin cfg0.N) : t.val < 64 := by
  have h := t.isLt
  have hN : cfg0.N = 64 := N_0
  omega

/-- Point t's block of selected values at (b, k, q) is the padded array at (b, k, 16384·t + q). -/
theorem sel_block (c : Dev nD) (t : Fin cfg0.N) (b : Fin 8) (k : Fin 4) (q : Fin 16384) (p' : Fin 1048576)
    (hp : p'.val = t.val * 16384 + q.val) : iblk m c 0 t (ix3 b k q) = selPad m c (ix3 b k p') := by
  show selPad m c (((cfg0.win 0).blk t).view.emb (ix3 b k q)) = selPad m c (ix3 b k p')
  obtain ⟨e0, e1, e2, -⟩ := idx_facts t
  refine congrArg (selPad m c) (funext fun a => Fin.ext ?_)
  match a with
  | ⟨0, _⟩ => show win0_0.index t (0 : Fin 3) * 8 + 1 * b.val = b.val; omega
  | ⟨1, _⟩ => show win0_0.index t (1 : Fin 3) * 4 + 1 * k.val = k.val; omega
  | ⟨2, _⟩ => show win0_0.index t (2 : Fin 3) * 16384 + 1 * q.val = p'.val; omega

/-- Point t's block of weights at (k, q) is the padded weights at (k, 16384·t + q). -/
theorem wts_block (c : Dev nD) (t : Fin cfg0.N) (k : Fin 4) (q : Fin 16384) (p' : Fin 1048576)
    (hp : p'.val = t.val * 16384 + q.val) : iblk m c 1 t (ix2 k q) = wtsPad m c (ix2 k p') := by
  show wtsPad m c (((cfg0.win 1).blk t).view.emb (ix2 k q)) = wtsPad m c (ix2 k p')
  obtain ⟨-, -, -, e3, e4, -⟩ := idx_facts t
  refine congrArg (wtsPad m c) (funext fun a => Fin.ext ?_)
  match a with
  | ⟨0, _⟩ => show win0_1.index t (0 : Fin 2) * 4 + 1 * k.val = k.val; omega
  | ⟨1, _⟩ => show win0_1.index t (1 : Fin 2) * 16384 + 1 * q.val = p'.val; omega

/-- Point t's output block sits at (b, 16384·t + q) of the padded output. -/
theorem out_block (t : Fin cfg0.N) (b : Fin 8) (q : Fin 16384) (p' : Fin 1048576) (hp : p'.val = t.val * 16384 + q.val) :
    (((cfg0.win 2).blk t).view.emb (ix2 b q) : S8x1048576.Idx) = ix2 b p' := by
  obtain ⟨-, -, -, -, -, e5, e6⟩ := idx_facts t
  funext a
  apply Fin.ext
  match a with
  | ⟨0, _⟩ => show win0_2.index t (0 : Fin 2) * 8 + 1 * b.val = b.val; omega
  | ⟨1, _⟩ => show win0_2.index t (1 : Fin 2) * 16384 + 1 * q.val = p'.val; omega

/-- WHAT POINT t WRITES BACK is block t of the padded output. -/
theorem flushed_eq (c : Dev nD) (t : Fin cfg0.N) :
    (dats m 0 c).flushed 2 t = ((cfg0.win 2).blk t).view.read (Elt Ideal) (outPad m c) := by
  show (cfg0.win 2).cut (grid0.coords t) ((dats m 0 c).after 2 t) = _
  rw [after0_2]
  unfold out0_2
  rw [View.canon_unit_zero zeros2]
  simp only [View.ld_unit_zero (S := S8x4x16384) zeros3, View.ld_unit_zero (S := S4x16384) zeros2]
  funext j
  obtain ⟨b, q, rfl⟩ : ∃ (b : Fin 8) (q : Fin 16384), j = ix2 b q := ⟨j 0, j 1, eq_ix2 j⟩
  have ht := point_lt t
  show k0_pay1 (F := Ideal) (iblk m c 0 t) (iblk m c 1 t) (ix2 b q) = outPad m c (((cfg0.win 2).blk t).view.emb (ix2 b q))
  refine ((StencilBody.pay_apply (iblk m c 0 t) (iblk m c 1 t) b q).trans ?_).trans
    (congrArg (outPad m c) (out_block t b q ⟨t.val * 16384 + q.val, by omega⟩ rfl)).symm
  show _ = ∑ k : Fin 4, selPad m c (ix3 b k ⟨t.val * 16384 + q.val, by omega⟩) * wtsPad m c (ix2 k ⟨t.val * 16384 + q.val, by omega⟩)
  refine Finset.sum_congr rfl fun k _ => ?_
  rw [sel_block m c t b k q ⟨t.val * 16384 + q.val, by omega⟩ rfl, wts_block m c t k q ⟨t.val * 16384 + q.val, by omega⟩ rfl]

/-- An index of the padded output is in point t's block iff each coordinate is in the block's range on its axis. -/
theorem mem_blk (t : Fin cfg0.N) (i : S8x1048576.Idx) :
    i ∈ ((cfg0.win 2).blk t).view.set ↔ ∀ a : Fin 2, win0_2.index t a * S8x16384.size a ≤ (i a).val ∧ (i a).val < win0_2.index t a * S8x16384.size a + S8x16384.size a := by
  show i ∈ ((View.whole main_v5).slice (win0_2.rect t)).set ↔ _
  rw [View.set_slice_whole, Rect.mem_set_unit]
  exact Iff.rfl

/-- The 64 blocks tile the padded output: lane p is in the block of point p / 16384. -/
theorem cover (i : S8x1048576.Idx) : ∃ t : Fin cfg0.N, (cfg0.win 2).flush t = true ∧ i ∈ ((cfg0.win 2).blk t).view.set := by
  have hi0 : (i 0).val < 8 := (i 0).isLt
  have hi1 : (i 1).val < 1048576 := (i 1).isLt
  have hN : cfg0.N = 64 := N_0
  have hlt : (i 1).val / 16384 < cfg0.N := by rw [hN]; omega
  obtain ⟨-, -, -, -, -, e5, e6⟩ := idx_facts ⟨(i 1).val / 16384, hlt⟩
  refine ⟨⟨(i 1).val / 16384, hlt⟩, flush0_2 _, ?_⟩
  rw [mem_blk]
  intro a
  match a with
  | ⟨0, _⟩ =>
    show win0_2.index ⟨(i 1).val / 16384, hlt⟩ (0 : Fin 2) * 8 ≤ (i 0).val ∧ (i 0).val < win0_2.index ⟨(i 1).val / 16384, hlt⟩ (0 : Fin 2) * 8 + 8
    omega
  | ⟨1, _⟩ =>
    show win0_2.index ⟨(i 1).val / 16384, hlt⟩ (1 : Fin 2) * 16384 ≤ (i 1).val ∧ (i 1).val < win0_2.index ⟨(i 1).val / 16384, hlt⟩ (1 : Fin 2) * 16384 + 16384
    have e6' : win0_2.index ⟨(i 1).val / 16384, hlt⟩ (1 : Fin 2) = (i 1).val / 16384 := e6
    omega

/-- THE PADDED OUTPUT after the region is the weighted stencil sum of the padded arrays. -/
theorem final (c : Dev nD) : (dats m 0 c).arrAt 2 cfg0.N = outPad m c :=
  (dats m 0 c).arrAt_eq_of_cover 2 (outPad m c) (fun t _ => flushed_eq m c t) (fun i => cover i)

/-- The output window's array as the region leaves it, read where the later operation reads it. -/
theorem arr_after (c : Dev nD) :
    (Pipeline.withArrays spec0 c (V0 m c) (fun w => (dats m 0 c).arrAt w cfg0.N) (Proc.devRef .tc main_v5) : FVec Ideal S8x1048576 .f32)
      = outPad m c :=
  (Pipeline.withArrays_arr spec0 launch0.win.arr_inj c (V0 m c) (fun w => (dats m 0 c).arrAt w cfg0.N) 2).trans (final m c)

/-- The result buffer after the one operation that follows the region: the padded output cut to the target extent. -/
theorem tail_eq (c : Dev nD) :
    Pipeline.afterTail₀ cfgs (dats m) 0 (V0 m) [hostOps1] c main_v6
      = extractStridedSlice S8x1038240 ![0, 0] (outPad m c) slices_S8x1048576_S8x1038240_0_0 := by
  unfold Pipeline.afterTail₀
  show StableHlo.after hostOps1 _ (Proc.devRef .tc main_v6) = _
  after_results
  exact congrArg (fun X : FVec Ideal S8x1048576 .f32 => extractStridedSlice S8x1038240 ![0, 0] X slices_S8x1048576_S8x1038240_0_0)
    (arr_after m c)

/-- Cut to the target extent, the padded sum is the weighted stencil sum of the selected values and the weights:
    below column 1038240 both padded arrays read what they were padded from. -/
theorem cut_eq (c : Dev nD) :
    extractStridedSlice S8x1038240 ![0, 0] (outPad m c) slices_S8x1048576_S8x1038240_0_0
      = Cert.Stencil.wsum (sel m c) (wts m c) := by
  funext i
  obtain ⟨b, p, rfl⟩ : ∃ (b : Fin 8) (p : Fin 1038240), i = ix2 b p := ⟨i 0, i 1, eq_ix2 i⟩
  have hp : p.val < 1048576 := by have := p.isLt; omega
  refine (slice2_axis1_apply 0 (outPad m c) slices_S8x1048576_S8x1038240_0_0 b p ⟨p.val, hp⟩ (Nat.zero_add _).symm).trans ?_
  show ∑ k : Fin 4, selPad m c (ix3 b k ⟨p.val, hp⟩) * wtsPad m c (ix2 k ⟨p.val, hp⟩) = ∑ k : Fin 4, sel m c (ix3 b k p) * wts m c (ix2 k p)
  refine Finset.sum_congr rfl fun k _ => ?_
  exact congrArg₂ (· * ·) (StencilHost.V_main_v3_apply m c b k p ⟨p.val, hp⟩ rfl) (StencilHost.V_main_v4_apply m c k p ⟨p.val, hp⟩ rfl)

/-- THE RUN, READ: every weakly fair execution terminates with the result buffer at the weighted stencil sum of the
    selected values and the weights, the arguments unchanged. -/
theorem run : θ_run defs (onTc (τ := τ) (main (F := Ideal))) ⟨m, fun _ => 0, ρ⟩ fun r => ∀ c : Dev nD,
      r.2.mem ((c.tc : Thread nD τ).loc main_v6) = Cert.Stencil.wsum (sel m c) (wts m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c =>
      ⟨((h c).2 main_v6 (Pipeline.mem_restRefs_of main_v6 (by decide) (by decide))).trans ((tail_eq m c).trans (cut_eq m c)),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c),
       ((h c).2 main_arg2 (Pipeline.mem_restRefs_of main_arg2 (by decide) (by decide))).trans (W_main_arg2 m (dats m) c)⟩)
    (run_main m ρ)

end Cert.KernelIdeal.StencilValue

end
-- ==== Proof.lean ====
/-
  out[b, p] = Σ_k weight[k, p] · x[b, pix[k, p]]: a kernel against its reference, over the extended reals.

  Both programs begin alike: the index table is flattened, `take` picks one column of x per index (a negative
  index moved up by the extent, an index still out of range giving the fill pattern), and the columns are
  regrouped as sel[b, k, p]. That stage is ONE function of (x, pix) on both sides (`Cert.Stencil.selected`) and is
  never opened.

  The reference multiplies sel by the weights broadcast over the batch axis and sums over the stencil axis from
  zero: Σ_k sel[b, k, p] · w[k, p] (Proof/RefRun.lean: its run; Proof/RefValue.lean: the sum read at an index).

  The kernel's program pads sel and the weights along the target axis with zeros to 64 blocks of 16384 lanes,
  computes the same four-term sum block by block on a grid of 64 points, and cuts the padding off again
  (Proof/KernelBody.lean: one block's value; Proof/KernelHost.lean: the padded arrays; Proof/KernelValue.lean:
  the blocks tile the padded output, and below column 1038240 the padded arrays read what they were padded from).

  So both results are the same function `Cert.Stencil.wsum` of the same arguments. No law of the extended reals
  beyond 0 + a = a is used, and the precondition (finite inputs) is never opened. No operation of
  the kernel is rewritten for its reading over the extended reals, so `preserves` has no conjunct.
-/
import proofs.«110964_j9251359556349_1_alg».proof.Defs
import proofs.«110964_j9251359556349_1_alg».proof.Proof.Gen.Kernel
import proofs.«110964_j9251359556349_1_alg».proof.Proof.Gen.Kernel.Skeleton
import proofs.«110964_j9251359556349_1_alg».proof.Proof.Gen.Kernel.Launch
import proofs.«110964_j9251359556349_1_alg».proof.Proof.Gen.Kernel.Points
import proofs.«110964_j9251359556349_1_alg».proof.Proof.Gen.Kernel.Frame
import proofs.«110964_j9251359556349_1_alg».proof.Proof.Gen.KernelIdeal
import proofs.«110964_j9251359556349_1_alg».proof.Proof.Gen.KernelIdeal.Skeleton
import proofs.«110964_j9251359556349_1_alg».proof.Proof.Gen.KernelIdeal.Launch
import proofs.«110964_j9251359556349_1_alg».proof.Proof.Gen.KernelIdeal.Points
import proofs.«110964_j9251359556349_1_alg».proof.Proof.Gen.KernelIdeal.Frame
import proofs.«110964_j9251359556349_1_alg».proof.Proof.Gen.ReferenceIdeal
import proofs.«110964_j9251359556349_1_alg».proof.Proof.Gen.Pre_finite_inputs
import proofs.«110964_j9251359556349_1_alg».proof.Proof.RefRun
import proofs.«110964_j9251359556349_1_alg».proof.Proof.RefValue
import proofs.«110964_j9251359556349_1_alg».proof.Proof.KernelValue
import Idealize.ShloMosaic.Adequacy
import Idealize.ShloMosaic.Init

noncomputable section

namespace Cert.Proof

open Idealize.ShloMosaic Idealize.SL.Sem

/-- The word-level kernel runs and keeps its arguments: its generated frame. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference runs and keeps its arguments: its run with the result dropped. -/
theorem frame_reference : Cert.frame_ReferenceIdeal := fun m ρ _ =>
  (θ_run Cert.ReferenceIdeal.defs _ _).mono (fun _ h c => ⟨(h c).2.1, (h c).2.2.1, (h c).2.2.2⟩)
    (Cert.ReferenceIdeal.HostRun.run (F := Ideal) m ρ)

/-- No operation of the kernel is rewritten for its reading over the extended reals. -/
theorem preserves : Cert.preserves_Kernel_KernelIdeal := trivial

/-- From memories agreeing on the three arguments both programs end with the weighted stencil sum of the
    selected values and the weights in their result buffers. -/
theorem algebraic : Cert.algebraic_KernelIdeal_ReferenceIdeal := by
  intro m ρ m' ρ' _ hagree
  refine ⟨fun c => Cert.Stencil.wsum (Cert.KernelIdeal.StencilHost.sel m c) (Cert.KernelIdeal.StencilHost.wts m c),
    Cert.KernelIdeal.StencilValue.run m ρ, ?_⟩
  refine (θ_run Cert.ReferenceIdeal.defs _ _).mono (fun _ h c => ⟨(h c).1.trans ?_, (h c).2⟩)
    (Cert.ReferenceIdeal.HostRun.run (F := Ideal) m' ρ')
  rw [Cert.ReferenceIdeal.HostValue.result_eq, (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
